-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096 : Shape := ⟨3, ![4, 32, 4096]⟩
abbrev S11008x4096 : Shape := ⟨2, ![11008, 4096]⟩
abbrev S11008 : Shape := ⟨1, ![11008]⟩
abbrev S_ : Shape := ⟨0, ![]⟩

class Facts : Prop where
  bcast_S_S4x32x4096 : S_.BroadcastsInDim S4x32x4096 (![] : Fin 0 → Fin S4x32x4096.rank)
  reducesTo_S4x32x4096_S_d0_1_2 : S4x32x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x32x4096 .f32) (main_arg1 : IVec S11008x4096 32) (main_arg2 : FVec F S11008 .f32) : IVec S_ 1 :=
  let main_v0 : FVec F S4x32x4096 .f32 := Host.absf main_arg0
  let main_cst : FVec F S_ .f32 := constant S_ .f32 0x7F800000#32
  let main_v1 : FVec F S4x32x4096 .f32 := broadcastInDim S4x32x4096 ![] bcast_S_S4x32x4096 main_cst
  let main_v2 : IVec S4x32x4096 1 := cmpf .olt main_v0 main_v1
  let main_c : IVec S_ 1 := constantI S_ 1 1#1
  let main_v3 : IVec S_ 1 := (fun x v => Host.reduce IntOp.andi x v reducesTo_S4x32x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x32x4096 : Shape := ⟨3, ![4, 32, 4096]⟩
abbrev S11008x4096 : Shape := ⟨2, ![11008, 4096]⟩
abbrev S11008 : Shape := ⟨1, ![11008]⟩
abbrev S128x4096 : Shape := ⟨2, ![128, 4096]⟩
abbrev S1x11008 : Shape := ⟨2, ![1, 11008]⟩
abbrev S128x11008 : Shape := ⟨2, ![128, 11008]⟩
abbrev S256x4096 : Shape := ⟨2, ![256, 4096]⟩
abbrev S1x256 : Shape := ⟨2, ![1, 256]⟩
abbrev S128x256 : Shape := ⟨2, ![128, 256]⟩
abbrev S4x32x11008 : Shape := ⟨3, ![4, 32, 11008]⟩

abbrev nBuf : Space → Nat
  | .hbm => 7
  | .vmem => 7
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .i32⟩
  | .hbm, ⟨2, _⟩ => ⟨S11008, .f32⟩
  | .hbm, ⟨3, _⟩ => ⟨S128x4096, .f32⟩
  | .hbm, ⟨4, _⟩ => ⟨S1x11008, .f32⟩
  | .hbm, ⟨5, _⟩ => ⟨S128x11008, .f32⟩
  | .hbm, ⟨6, _⟩ => ⟨S4x32x11008, .f32⟩
  | .local _ .vmem, ⟨0, _⟩ => ⟨S128x4096, .f32⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S128x256, .f32⟩
  | .local _ .vmem, ⟨6, _⟩ => ⟨S128x256, .f32⟩
  | _, _ => ⟨S4x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32x4096_S128x4096 : S4x32x4096.ShapeCasts S128x4096
  shapeCasts_S11008_S1x11008 : S11008.ShapeCasts S1x11008
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S128x11008_S4x32x11008 : S128x11008.ShapeCasts S4x32x11008
  dot_S128x4096_S256x4096_S128x256_1_1_0_0_n_n_wf : DotDims.WF S128x4096 S256x4096 S128x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x11008.size a
  hwx0_3 : ∀ i : grid0.Coords, EltTy.bits .f32 = 32 ∨ (Rect.block (s := S128x11008) S128x256.size (cc0_transform_3 i) (hinb0_3 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x4096 : Shape := ⟨3, ![4, 32, 4096]⟩
abbrev S11008x4096 : Shape := ⟨2, ![11008, 4096]⟩
abbrev S11008 : Shape := ⟨1, ![11008]⟩
abbrev S_ : Shape := ⟨0, ![]⟩
abbrev S4x32x11008 : Shape := ⟨3, ![4, 32, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S_, .f32⟩
  | .hbm, ⟨5, _⟩ => ⟨S11008x4096, .f32⟩
  | .hbm, ⟨6, _⟩ => ⟨S11008x4096, .f32⟩
  | .hbm, ⟨7, _⟩ => ⟨S4x32x11008, .f32⟩
  | .hbm, ⟨8, _⟩ => ⟨S1x1x11008, .f32⟩
  | .hbm, ⟨9, _⟩ => ⟨S4x32x11008, .f32⟩
  | .hbm, ⟨10, _⟩ => ⟨S4x32x11008, .f32⟩
  | _, _ => ⟨S4x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S4x32x11008_0_1_2 : S1x1x11008.BroadcastsInDim S4x32x11008 (![0, 1, 2] : Fin 3 → Fin S4x32x11008.rank)
  dot_S4x32x4096_S11008x4096_S4x32x11008_2_1_01_0_n_n_wf : DotDims.WF S4x32x4096 S11008x4096 S4x32x11008 [2] [1] [0, 1] [0] [] []

variable [Facts₀]

def dot_S4x32x4096_S11008x4096_S4x32x11008_2_1_01_0_n_n : DotDims S4x32x4096 S11008x4096 S4x32x11008 where
  lhsContracting := [2]
  rhsContracting := [1]
  lhsNonContracting := [0, 1]
  rhsNonContracting := [0]
  lhsBatch := []
  rhsBatch := []
  wf := dot_S4x32x4096_S11008x4096_S4x32x11008_2_1_01_0_n_n_wf

class Facts : Prop extends Facts₀ where

variable [Facts]
-- ==== Proof.DequantLinear.lean ====
/-
  The function both programs compute, over the extended reals.

  A quantised weight word `v` (a 32-bit integer holding an int8 value) is dequantised to `(v read signed) · s`, where `s`
  is the value of the one per-tensor scale literal; the linear layer is then, for an activation row `x[b, t, ·]` and an
  output feature `n`,
      y[b, t, n] = (Σ_k x[b, t, k] · (w[n, k] · s)) + bias[n],
  a sum over the 4096 input features. The same function with the two leading axes flattened to one row axis of 128 is
  `rows`; the two agree entry by entry under the row-major flattening r = 32·b + t (module Flatten, `dense_of_rows`).
-/
import Idealize.ShloMosaic.PureOps.Ideal
import Idealize.ShloMosaic.Lib.ValueIdx

noncomputable section

namespace Cert.DequantLinear

open Idealize.ShloMosaic Idealize.ShloMosaic.ValueIdx

/-- The per-tensor scale: what the literal's word denotes. It is the same word in both programs and is never evaluated. -/
def scale : EReal := FloatOps.ofBits (F := Ideal) .f32 0x3C23D70A#32

/-- One dequantised weight: the word read as a signed integer, times the scale. -/
def deq (v : BitVec 32) : EReal := FloatOps.sitofp (F := Ideal) .f32 v * scale

/-- The layer on flattened rows: entry `(r, n)` is `Σ_k x[r, k] · deq w[n, k] + bias[0, n]`. -/
def rows (x : (⟨2, ![128, 4096]⟩ : Shape).Idx → EReal) (w : (⟨2, ![11008, 4096]⟩ : Shape).Idx → BitVec 32)
    (b : (⟨2, ![1, 11008]⟩ : Shape).Idx → EReal) : (⟨2, ![128, 11008]⟩ : Shape).Idx → EReal :=
  fun i => (∑ k : Fin 4096, x (ix2 (i 0) k) * deq (w (ix2 (i 1) k))) + b (ix2 (0 : Fin 1) (i 1))

/-- The layer itself: entry `(b, t, n)` is `Σ_k x[b, t, k] · deq w[n, k] + bias[n]`. -/
def dense (x : (⟨3, ![4, 32, 4096]⟩ : Shape).Idx → EReal) (w : (⟨2, ![11008, 4096]⟩ : Shape).Idx → BitVec 32)
    (b : (⟨1, ![11008]⟩ : Shape).Idx → EReal) : (⟨3, ![4, 32, 11008]⟩ : Shape).Idx → EReal :=
  fun i => (∑ k : Fin 4096, x (ix3 (i 0) (i 1) k) * deq (w (ix2 (i 2) k))) + b (ix1 (i 2))

end Cert.DequantLinear

end
-- ==== Proof.TileEntry.lean ====
/-
  One grid step of the kernel, read at one entry.

  At a grid step the body holds the whole activation matrix `x` (128 rows of 4096 features), one tile `w` of 256 weight
  rows, and the tile's 256 bias entries as a single row. It multiplies each weight word (read signed) by the scale,
  contracts the feature axis of `x` with the feature axis of the tile on the matrix unit into a zero accumulator, and adds
  the bias row to every row of the product. Over the extended reals the changes of float format are the identity and the
  matrix product into zero is a plain sum, so entry `(p, q)` of the stored tile is
      Σ_k x[p, k] · deq w[q, k] + bias[0, q].
-/
import proofs.«164551_j52441550684585_1_alg».proof.Proof.Gen.KernelIdeal.Skeleton
import proofs.«164551_j52441550684585_1_alg».proof.Proof.DequantLinear
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileEntry

open Cert.KernelIdeal Cert.KernelIdeal.Gen Idealize.ShloMosaic Idealize.ShloMosaic.ValueIdx Cert.DequantLinear

/-- The left operand's row coordinate is the output's row. -/
theorem lhs_dot_0 (i : S128x256.Idx) (q : dot_S128x4096_S256x4096_S128x256_1_1_0_0_n_n.contr.Idx) :
    (dot_S128x4096_S256x4096_S128x256_1_1_0_0_n_n.lhsIdx i q 0).val = (i 0).val := by
  unfold DotDims.lhsIdx
  rw [dif_neg (show ¬(0 : Fin S128x4096.rank) ∈ dot_S128x4096_S256x4096_S128x256_1_1_0_0_n_n.lhsBatch by decide), dif_pos (show (0 : Fin S128x4096.rank) ∈ dot_S128x4096_S256x4096_S128x256_1_1_0_0_n_n.lhsNonContracting by decide)]
  rfl

/-- The left operand's feature coordinate is the contracted one. -/
theorem lhs_dot_1 (i : S128x256.Idx) (q : dot_S128x4096_S256x4096_S128x256_1_1_0_0_n_n.contr.Idx) :
    (dot_S128x4096_S256x4096_S128x256_1_1_0_0_n_n.lhsIdx i q 1).val = (q ⟨0, by decide⟩).val :=
  dot_S128x4096_S256x4096_S128x256_1_1_0_0_n_n.lhsIdx_val_of_single rfl i q

/-- The right operand's row coordinate is the output's column: the tile is contracted along its own feature axis. -/
theorem rhs_dot_0 (i : S128x256.Idx) (q : dot_S128x4096_S256x4096_S128x256_1_1_0_0_n_n.contr.Idx) :
    (dot_S128x4096_S256x4096_S128x256_1_1_0_0_n_n.rhsIdx i q 0).val = (i 1).val := by
  unfold DotDims.rhsIdx
  rw [dif_neg (show ¬(0 : Fin S256x4096.rank) ∈ dot_S128x4096_S256x4096_S128x256_1_1_0_0_n_n.rhsBatch by decide), dif_pos (show (0 : Fin S256x4096.rank) ∈ dot_S128x4096_S256x4096_S128x256_1_1_0_0_n_n.rhsNonContracting by decide)]
  rfl

/-- The right operand's feature coordinate is the contracted one. -/
theorem rhs_dot_1 (i : S128x256.Idx) (q : dot_S128x4096_S256x4096_S128x256_1_1_0_0_n_n.contr.Idx) :
    (dot_S128x4096_S256x4096_S128x256_1_1_0_0_n_n.rhsIdx i q 1).val = (q ⟨0, by decide⟩).val :=
  dot_S128x4096_S256x4096_S128x256_1_1_0_0_n_n.rhsIdx_val_of_single rfl i q

/-- The matrix unit's product of a [128, 4096] operand with a [256, 4096] operand, both contracted along the feature
    axis, into the zero accumulator: entry `(p, q)` is `Σ_k l[p, k] · r[q, k]`. -/
theorem rowsTimesRows {φ₁ φ₂ : FTy} (l : FVec Ideal S128x4096 φ₁) (r : FVec Ideal S256x4096 φ₂) (p : Fin 128) (q : Fin 256) :
    FloatOps.matmul dot_S128x4096_S256x4096_S128x256_1_1_0_0_n_n none l r (constant S128x256 .f32 0x00000000#32) (ix2 p q)
      = ∑ k : Fin 4096, l (ix2 p k) * r (ix2 q k) := by
  rw [Ideal.matmul_constant_zero_apply, ← Equiv.sum_comp (ValueIdx.contrEquiv1 dot_S128x4096_S256x4096_S128x256_1_1_0_0_n_n 4096 rfl rfl).symm]
  refine Finset.sum_congr rfl fun k _ => ?_
  have hk := ValueIdx.contrEquiv1_symm_val dot_S128x4096_S256x4096_S128x256_1_1_0_0_n_n 4096 rfl rfl k
  have el : dot_S128x4096_S256x4096_S128x256_1_1_0_0_n_n.lhsIdx (ix2 p q) ((ValueIdx.contrEquiv1 dot_S128x4096_S256x4096_S128x256_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S128x4096_S256x4096_S128x256_1_1_0_0_n_n.rhsIdx (ix2 p q) ((ValueIdx.contrEquiv1 dot_S128x4096_S256x4096_S128x256_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-- The stored tile at entry `(p, q)`: the contraction of row `p` of `x` with the dequantised weight row `q`, plus the
    bias row's entry `q`. -/
theorem tile_entry (x : Vec Ideal S128x4096 .f32) (w : Vec Ideal S256x4096 .i32) (b : Vec Ideal S1x256 .f32) (p : Fin 128) (q : Fin 256) :
    k0_pay1 (F := Ideal) x w b (ix2 p q) = (∑ k : Fin 4096, x (ix2 p k) * deq (w (ix2 q k))) + b (ix2 (0 : Fin 1) q) := by
  unfold k0_pay1
  simp only [matmul]
  rw [addf_apply, rowsTimesRows, broadcastTo_1b_ab_apply, shapeCast_self, shapeCast_self]
  rfl

end Cert.KernelIdeal.TileEntry

end
-- ==== Proof.TileBlocks.lean ====
/-
  Which part of each array a grid step's blocks are.

  At step `t` the output tile is columns `256·t … 256·t + 255` of the [128, 11008] output. The activation block is the
  whole [128, 4096] array at every step, the weight block is rows `256·t …` of the weight array, the bias block is
  columns `256·t …` of the bias row. A block's coordinate in its array is always (block index) × (block size) + (the
  coordinate inside the block); the block indices are decided once over the 43 steps.
-/
import proofs.«164551_j52441550684585_1_alg».proof.Proof.Gen.KernelIdeal.Frame
import proofs.«164551_j52441550684585_1_alg».proof.Proof.TileEntry

set_option maxRecDepth 16384

noncomputable section

namespace Cert.KernelIdeal.TileBlocks

open Cert.KernelIdeal Cert.KernelIdeal.Gen Idealize.ShloMosaic Idealize.ShloMosaic.TcCoe Idealize.ShloMosaic.ValueIdx
open Idealize.SL.Sem Cert.DequantLinear Cert.KernelIdeal.TileEntry

variable (m : (ℓ : Loc nD τ sig) → Buf (Elt Ideal) ℓ) (ρ : Dev nD → PrngReg)

theorem hz : (![0, 0] : Fin 2 → Nat) = fun _ => 0 := funext fun a => by fin_cases a <;> rfl

/-- The block indices at step `t`, decided over the grid: the activation block never moves; the weight block's row
    index and the bias block's column index are the output tile's column index, which is below 43; every other block
    index is zero. -/
theorem idx_facts : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 ∧ win0_3.index t (1 : Fin 2) ≤ 42 :=
  (by decide +kernel : ∀ t : Fin grid0.N, _)

/-- Every column tile is some step's. -/
theorem idx_onto : ∀ q : Fin 43, ∃ t : Fin cfg0.N, win0_3.index t = ![0, q.val] :=
  (by decide +kernel : ∀ q : Fin 43, ∃ t : Fin grid0.N, win0_3.index t = ![0, q.val])

/-- The activation block at any step is the whole activation array. -/
theorem x_at (c : Dev nD) (t : Fin cfg0.N) (p : Fin 128) (k : Fin 4096) (i : S128x4096.Idx)
    (h0 : (i 0).val = p.val) (h1 : (i 1).val = k.val) :
    iblk m c 0 t (ix2 p k) = V m c main_v0 i := by
  obtain ⟨e0, e1, -⟩ := idx_facts t
  show V m c main_v0 (((cfg0.win 0).blk t).view.emb (ix2 p k)) = V m c main_v0 i
  congr 1
  funext a; apply Fin.ext
  match a with
  | ⟨0, _⟩ => show win0_0.index t (0 : Fin 2) * 128 + 1 * p.val = (i 0).val; omega
  | ⟨1, _⟩ => show win0_0.index t (1 : Fin 2) * 4096 + 1 * k.val = (i 1).val; omega

/-- The weight block at step `t` is the weight array's rows from `256 ·` (the tile's column index) on. -/
theorem w_at (c : Dev nD) (t : Fin cfg0.N) (q : Fin 256) (k : Fin 4096) (i : S11008x4096.Idx)
    (h0 : (i 0).val = win0_3.index t (1 : Fin 2) * 256 + q.val) (h1 : (i 1).val = k.val) :
    iblk m c 1 t (ix2 q k) = V m c main_arg1 i := by
  obtain ⟨-, -, e2, e3, -⟩ := idx_facts t
  show V m c main_arg1 (((cfg0.win 1).blk t).view.emb (ix2 q k)) = V m c main_arg1 i
  congr 1
  funext a; apply Fin.ext
  match a with
  | ⟨0, _⟩ => show win0_1.index t (0 : Fin 2) * 256 + 1 * q.val = (i 0).val; omega
  | ⟨1, _⟩ => show win0_1.index t (1 : Fin 2) * 4096 + 1 * k.val = (i 1).val; omega

/-- The bias block at step `t` is the bias row's columns from `256 ·` (the tile's column index) on. -/
theorem b_at (c : Dev nD) (t : Fin cfg0.N) (q : Fin 256) (i : S1x11008.Idx)
    (h0 : (i 0).val = 0) (h1 : (i 1).val = win0_3.index t (1 : Fin 2) * 256 + q.val) :
    iblk m c 2 t (ix2 (0 : Fin 1) q) = V m c main_v1 i := by
  obtain ⟨-, -, -, -, e4, e5, -⟩ := idx_facts t
  show V m c main_v1 (((cfg0.win 2).blk t).view.emb (ix2 (0 : Fin 1) q)) = V m c main_v1 i
  congr 1
  funext a; apply Fin.ext
  match a with
  | ⟨0, _⟩ => show win0_2.index t (0 : Fin 2) * 1 + 1 * (0 : Fin 1).val = (i 0).val; simp only [Fin.val_zero]; omega
  | ⟨1, _⟩ => show win0_2.index t (1 : Fin 2) * 256 + 1 * q.val = (i 1).val; omega

end Cert.KernelIdeal.TileBlocks

end
-- ==== Proof.RowsArray.lean ====
/-
  The kernel's output array after all 43 grid steps.

  What step `t` writes back is the restriction to its tile of ONE function of the arrays the region finds,
  `DequantLinear.rows` (the tile's entries by `TileEntry.tile_entry`, the blocks' places by `TileBlocks`), and since the
  43 tiles cover all 11008 columns the output array ends holding that function everywhere.
-/
import proofs.«164551_j52441550684585_1_alg».proof.Proof.TileBlocks

set_option maxRecDepth 16384

noncomputable section

namespace Cert.KernelIdeal.RowsArray

open Cert.KernelIdeal Cert.KernelIdeal.Gen Idealize.ShloMosaic Idealize.ShloMosaic.TcCoe Idealize.ShloMosaic.ValueIdx
open Idealize.SL.Sem Cert.DequantLinear Cert.KernelIdeal.TileEntry Cert.KernelIdeal.TileBlocks

variable (m : (ℓ : Loc nD τ sig) → Buf (Elt Ideal) ℓ) (ρ : Dev nD → PrngReg)

/-- What step `t` writes back is tile `t` of `rows` of the arrays as the region finds them: the body's one store covers
    its buffer, its payload at `(p, q)` is `tile_entry`'s sum, and each block entry is the array entry at the tile's place. -/
theorem flushed_eq (c : Dev nD) (t : Fin cfg0.N) :
    (dats m 0 c).flushed 3 t = ((cfg0.win 3).blk t).view.read (Elt Ideal) (rows (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S128x4096) hz, View.ld_unit_zero (S := S256x4096) hz, View.ld_unit_zero (S := S1x256) hz]
  obtain ⟨-, -, -, -, -, -, e6, e7⟩ := idx_facts t
  funext j
  obtain ⟨p, q, rfl⟩ : ∃ (p : Fin 128) (q : Fin 256), j = ix2 p q := ⟨j 0, j 1, eq_ix2 j⟩
  show k0_pay1 (iblk m c 0 t) (iblk m c 1 t) (iblk m c 2 t) (ix2 p q)
    = rows (V m c main_v0) (V m c main_arg1) (V m c main_v1) (((cfg0.win 3).blk t).view.emb (ix2 p q))
  refine (tile_entry (iblk m c 0 t) (iblk m c 1 t) (iblk m c 2 t) p q).trans ?_
  have r0 : ((((cfg0.win 3).blk t).view.emb (ix2 p q)) 0).val = p.val := by
    show win0_3.index t (0 : Fin 2) * 128 + 1 * p.val = p.val; omega
  have r1 : ((((cfg0.win 3).blk t).view.emb (ix2 p q)) 1).val = win0_3.index t (1 : Fin 2) * 256 + q.val := by
    show win0_3.index t (1 : Fin 2) * 256 + 1 * q.val = _; omega
  unfold rows
  exact congrArg₂ (· + ·)
    (Finset.sum_congr rfl fun k _ => congrArg₂ (· * ·) (x_at m c t p k _ r0 rfl) (congrArg deq (w_at m c t q k _ r1 rfl)))
    (b_at m c t q _ rfl r1)

/-- An index of the output array is in step `t`'s tile iff each coordinate is in the tile's range on its axis. -/
theorem mem_blk (t : Fin cfg0.N) (i : S128x11008.Idx) :
    i ∈ ((cfg0.win 3).blk t).view.set ↔ ∀ a : Fin 2, win0_3.index t a * S128x256.size a ≤ (i a).val ∧ (i a).val < win0_3.index t a * S128x256.size a + S128x256.size a := by
  show i ∈ ((View.whole main_v2).slice (win0_3.rect t)).set ↔ _
  rw [View.set_slice_whole, Rect.mem_set_unit]
  exact Iff.rfl

/-- Every index is in the tile of the step whose column index is (the column) / 256. -/
theorem cover (i : S128x11008.Idx) : ∃ t : Fin cfg0.N, (cfg0.win 3).flush t = true ∧ i ∈ ((cfg0.win 3).blk t).view.set := by
  have hi0 : (i 0).val < 128 := (i 0).isLt
  have hi1 : (i 1).val < 11008 := (i 1).isLt
  obtain ⟨t, ht⟩ := idx_onto ⟨(i 1).val / 256, by omega⟩
  have q0 : win0_3.index t (0 : Fin 2) = 0 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 256 ≤ (i 1).val ∧ (i 1).val < win0_3.index t (1 : Fin 2) * 256 + 256; omega

/-- The output array after the last step is `rows` of the arrays the region finds. -/
theorem final (c : Dev nD) :
    (dats m 0 c).arrAt 3 cfg0.N = rows (V m c main_v0) (V m c main_arg1) (V m c main_v1) :=
  (dats m 0 c).arrAt_eq_of_cover 3 _ (fun t _ => flushed_eq m c t) cover

end Cert.KernelIdeal.RowsArray

end
-- ==== Proof.Flatten.lean ====
/-
  Flattening the two leading axes.

  The kernel works on the activations as 128 rows (row `r = 32·b + t`) and on the bias as one row, and its [128, 11008]
  result is read back as [4, 32, 11008]. All three are row-major reshapes, so entry `(b, t, n)` of the reshaped result is
  entry `(32·b + t, n)` of `rows`, whose activation row `32·b + t` is `x[b, t, ·]` and whose bias entry `(0, n)` is
  `bias[n]`: the reshaped `rows` of the reshaped arguments is `dense`.
-/
import proofs.«164551_j52441550684585_1_alg».proof.Proof.DequantLinear
import Idealize.ShloMosaic.Lib.Pipeline.Value
import Idealize.ShloMosaic.Lib.ValueLayout

noncomputable section

namespace Cert.DequantLinear

open Idealize.ShloMosaic Idealize.ShloMosaic.ValueIdx

/-- `rows` on the flattened activations and the bias as a row, read back with the row axis split, is `dense`. -/
theorem dense_of_rows (x : (⟨3, ![4, 32, 4096]⟩ : Shape).Idx → EReal) (w : (⟨2, ![11008, 4096]⟩ : Shape).Idx → BitVec 32)
    (b : (⟨1, ![11008]⟩ : Shape).Idx → EReal)
    (hx : (⟨3, ![4, 32, 4096]⟩ : Shape).ShapeCasts ⟨2, ![128, 4096]⟩)
    (hb : (⟨1, ![11008]⟩ : Shape).ShapeCasts ⟨2, ![1, 11008]⟩)
    (ho : (⟨2, ![128, 11008]⟩ : Shape).ShapeCasts ⟨3, ![4, 32, 11008]⟩) :
    shapeCast ⟨3, ![4, 32, 11008]⟩ (rows (shapeCast ⟨2, ![128, 4096]⟩ x hx) w (shapeCast ⟨2, ![1, 11008]⟩ b hb)) ho
      = dense x w b := by
  funext i
  obtain ⟨a, s, n, rfl⟩ : ∃ (a : Fin 4) (s : Fin 32) (n : Fin 11008), i = ix3 a s n := ⟨i 0, i 1, i 2, eq_ix3 i⟩
  have hr : a.val * 32 + s.val < 128 := by omega
  rw [shapeCast_apply _ ho (ix3 a s n) (ix2 (⟨a.val * 32 + s.val, hr⟩ : Fin 128) n) (by
    rw [Shape.rowMajor_val_two, Shape.rowMajor_val_three]; rfl)]
  show (∑ k : Fin 4096, shapeCast ⟨2, ![128, 4096]⟩ x hx (ix2 (⟨a.val * 32 + s.val, hr⟩ : Fin 128) k) * deq (w (ix2 n k)))
      + shapeCast ⟨2, ![1, 11008]⟩ b hb (ix2 (0 : Fin 1) n)
    = (∑ k : Fin 4096, x (ix3 a s k) * deq (w (ix2 n k))) + b (ix1 n)
  rw [shapeCast_a_1a_apply]
  refine congrArg (· + b (ix1 n)) (Finset.sum_congr rfl fun k _ => ?_)
  rw [shapeCast_apply x hx (ix2 (⟨a.val * 32 + s.val, hr⟩ : Fin 128) k) (ix3 a s k) (by
    rw [Shape.rowMajor_val_two, Shape.rowMajor_val_three]; rfl)]

end Cert.DequantLinear

end
-- ==== Proof.WholeRun.lean ====
/-
  The whole idealized kernel program, run.

  Before the region two row-major reshapes flatten the activations to [128, 4096] and lay the bias out as a [1, 11008]
  row; the weight array goes in as it is. The region leaves `DequantLinear.rows` of those in its [128, 11008] output
  (`RowsArray.final`), and one reshape after the region splits the row axis again. By `DequantLinear.dense_of_rows` the
  program's result is `DequantLinear.dense` of its three arguments, which end unchanged.
-/
import proofs.«164551_j52441550684585_1_alg».proof.Proof.RowsArray
import proofs.«164551_j52441550684585_1_alg».proof.Proof.Flatten
import Idealize.ShloMosaic.Lib.StableHlo.Run

set_option maxRecDepth 16384

noncomputable section

namespace Cert.KernelIdeal.WholeRun

open Cert.KernelIdeal Cert.KernelIdeal.Gen Idealize.ShloMosaic Idealize.ShloMosaic.TcCoe Idealize.ShloMosaic.ValueIdx
open Idealize.SL.Sem Cert.DequantLinear Cert.KernelIdeal.RowsArray

variable (m : (ℓ : Loc nD τ sig) → Buf (Elt Ideal) ℓ) (ρ : Dev nD → PrngReg)

/-- The activations the region finds are the argument, flattened. -/
theorem v0_eq (c : Dev nD) : (V m c main_v0 : S128x4096.Idx → EReal)
    = shapeCast S128x4096 (m ((c : Thread nD τ).loc main_arg0)) Facts₀.shapeCasts_S4x32x4096_S128x4096 := by
  show StableHlo.after hostOps0 (fun b => m (c, b)) (Proc.devRef .tc main_v0) = _
  after_results
  rfl

/-- The bias row the region finds is the argument, as one row. -/
theorem v1_eq (c : Dev nD) : (V m c main_v1 : S1x11008.Idx → EReal)
    = shapeCast S1x11008 (m ((c : Thread nD τ).loc main_arg2)) Facts₀.shapeCasts_S11008_S1x11008 := by
  show StableHlo.after hostOps0 (fun b => m (c, b)) (Proc.devRef .tc main_v1) = _
  after_results
  rfl

/-- The program's result: the reshape after the region reads the region's output array, which is `rows` of the
    flattened arguments; split back into [4, 32, 11008] that is `dense`. -/
theorem result_eq (c : Dev nD) :
    Pipeline.afterTail₀ cfgs (dats m) 0 (V0 m) [hostOps1] c main_v3
      = dense (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  show shapeCast S4x32x11008 (Pipeline.withArrays spec0 c (V0 m c) (fun w => (dats m 0 c).arrAt w cfg0.N)
      (Proc.devRef .tc (Pipeline.arrRef spec0 3))) Facts₀.shapeCasts_S128x11008_S4x32x11008 = _
  rw [Pipeline.withArrays_arr spec0 launch0.win.arr_inj c _ _ 3, final m c, v0_eq m c, V_main_arg1 m c, v1_eq m c]
  exact dense_of_rows _ _ _ _ _ _

/-- Every weakly fair execution of the idealized kernel program terminates with its result at `dense` of the arguments
    and the arguments unchanged. -/
theorem run : θ_run defs (onTc (τ := τ) (main (F := Ideal))) ⟨m, fun _ => 0, ρ⟩ fun r => ∀ c : Dev nD,
      r.2.mem ((c.tc : Thread nD τ).loc main_v3)
        = dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.WholeRun

end
-- ==== Proof.ReferenceDense.lean ====
/-
  The reference, read entry by entry.

  The reference converts the weight words to floats, multiplies by the broadcast scale literal, contracts the feature axis
  of the activations with the feature axis of the scaled weights in one `dot_general`, and adds the bias broadcast over the
  two leading axes. Over the extended reals entry `(b, t, n)` is `Σ_k x[b, t, k] · (w[n, k] · s) + bias[n]`: the function
  `DequantLinear.dense`.
-/
import proofs.«164551_j52441550684585_1_alg».proof.Proof.Gen.ReferenceIdeal.Read
import proofs.«164551_j52441550684585_1_alg».proof.Proof.DequantLinear

noncomputable section

namespace Cert.ReferenceIdeal.RefValue

open Cert.ReferenceIdeal Cert.ReferenceIdeal.Read Idealize.ShloMosaic Idealize.ShloMosaic.ValueIdx Cert.DequantLinear

/-- The reference's last stage is `dense` of its three arguments. -/
theorem reference_eq (x : (⟨S4x32x4096, .f32⟩ : BufTy).Contents (Elt Ideal)) (w : (⟨S11008x4096, .i32⟩ : BufTy).Contents (Elt Ideal))
    (b : (⟨S11008, .f32⟩ : BufTy).Contents (Elt Ideal)) :
    val_main_v6 (F := Ideal) x w b = dense x w b := by
  funext i
  rw [val_main_v6_apply, val_main_v3_apply, val_main_v5_apply, val_main_v4_apply]
  have el : ∀ k : Fin 4096, lidx_main_v3 i k = ix3 (i 0) (i 1) k := fun k => funext fun a => by
    match a with
    | ⟨0, _⟩ => rfl
    | ⟨1, _⟩ => rfl
    | ⟨2, _⟩ => rfl
  have er : ∀ k : Fin 4096, ridx_main_v3 i k = ix2 (i 2) k := fun k => funext fun a => by
    match a with
    | ⟨0, _⟩ => rfl
    | ⟨1, _⟩ => rfl
  have eb : idx_main_v4 (idx_main_v5 i) = ix1 (i 2) := funext fun a => by
    match a with
    | ⟨0, _⟩ => rfl
  unfold dense
  refine congrArg₂ (· + ·) (Finset.sum_congr rfl fun k _ => ?_) (congrArg b eb)
  rw [val_main_v2_apply, val_main_v0_apply, val_main_v1_apply, val_main_cst_apply]
  exact congrArg₂ (· * ·) (congrArg x (el k)) (congrArg (fun j => deq (w j)) (er k))

end Cert.ReferenceIdeal.RefValue

end
-- ==== Proof.lean ====
/-
  A dequantising linear layer: the kernel against its reference, over the extended reals.

  Both programs take activations x : [4, 32, 4096], quantised weights w : [11008, 4096] (integers) and a bias [11008], and
  compute  y[b, t, n] = Σ_k x[b, t, k] · (w[n, k] · s) + bias[n],  with s the value of one scale literal, the same word
  in both. The kernel flattens the two leading axes, walks the 11008 output features in 43 tiles of 256, multiplies on
  the matrix unit into a zero accumulator after two changes of float format (the identity over the extended reals),
  and reshapes back; the reference is one `dot_general` and a broadcast add. Neither side regroups a product or moves a
  factor across the sum, so no finiteness of the inputs is used: the two results are the same sum term by term.

  Modules: DequantLinear (the function), Flatten (the reshapes), TileEntry (one grid step at one entry), TileBlocks
  (where a step's blocks sit in their arrays), RowsArray (the output array after the grid), WholeRun (the kernel
  program's result), ReferenceDense (the reference's result).
-/
import proofs.«164551_j52441550684585_1_alg».proof.Defs
import proofs.«164551_j52441550684585_1_alg».proof.Proof.Gen.Kernel
import proofs.«164551_j52441550684585_1_alg».proof.Proof.Gen.Kernel.Skeleton
import proofs.«164551_j52441550684585_1_alg».proof.Proof.Gen.Kernel.Launch
import proofs.«164551_j52441550684585_1_alg».proof.Proof.Gen.Kernel.Points
import proofs.«164551_j52441550684585_1_alg».proof.Proof.Gen.Kernel.Frame
import proofs.«164551_j52441550684585_1_alg».proof.Proof.Gen.KernelIdeal
import proofs.«164551_j52441550684585_1_alg».proof.Proof.Gen.KernelIdeal.Skeleton
import proofs.«164551_j52441550684585_1_alg».proof.Proof.Gen.KernelIdeal.Launch
import proofs.«164551_j52441550684585_1_alg».proof.Proof.Gen.KernelIdeal.Points
import proofs.«164551_j52441550684585_1_alg».proof.Proof.Gen.KernelIdeal.Frame
import proofs.«164551_j52441550684585_1_alg».proof.Proof.Gen.ReferenceIdeal
import proofs.«164551_j52441550684585_1_alg».proof.Proof.Gen.ReferenceIdeal.Run
import proofs.«164551_j52441550684585_1_alg».proof.Proof.Gen.ReferenceIdeal.Read
import proofs.«164551_j52441550684585_1_alg».proof.Proof.Gen.Pre_finite_inputs
import proofs.«164551_j52441550684585_1_alg».proof.Proof.WholeRun
import proofs.«164551_j52441550684585_1_alg».proof.Proof.ReferenceDense
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is straight-line host code: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with `DequantLinear.dense` of the (agreeing) arguments. -/
theorem algebraic : Cert.algebraic_KernelIdeal_ReferenceIdeal := by
  intro m ρ m' ρ' _ hagree
  refine ⟨fun c => Cert.DequantLinear.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.WholeRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
